-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel

variable [Facts]

def fn {F : FTy → Type} [FloatOps F] (main_arg0 : FVec F S4194304x8 .f32) (main_arg1 : FVec F S4194304x8 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S4194304x8 .f32 := Host.absf main_arg1
  let main_cst_0 : FVec F S_ .f32 := constant S_ .f32 0x7F800000#32
  let main_v5 : FVec F S4194304x8 .f32 := broadcastInDim S4194304x8 ![] bcast_S_S4194304x8 main_cst_0
  let main_v6 : IVec S4194304x8 1 := cmpf .olt main_v4 main_v5
  let main_c_1 : IVec S_ 1 := constantI S_ 1 1#1
  let main_v7 : IVec S_ 1 := (fun x v => Host.reduce IntOp.andi x v reducesTo_S4194304x8_S_d0_1 h_S_) main_v6 main_c_1
  let main_v8 : IVec S_ 1 := andi main_v3 main_v7
  main_v8
-- ==== Kernel.lean ====
abbrev S4194304x8 : Shape := ⟨2, ![4194304, 8]⟩
abbrev S4096x8 : Shape := ⟨2, ![4096, 8]⟩
abbrev S4096x1 : Shape := ⟨2, ![4096, 1]⟩
abbrev S4096x7 : Shape := ⟨2, ![4096, 7]⟩
abbrev S4096 : Shape := ⟨1, ![4096]⟩

abbrev nBuf : Space → Nat
  | .hbm => 3
  | .vmem => 6
  | .smem => 0
  | _ => 0

abbrev bufTy : (tb : Table) → Fin (tcTables nBuf tb) → BufTy
  | .hbm, ⟨0, _⟩ => ⟨S4194304x8, .f32⟩
  | .hbm, ⟨1, _⟩ => ⟨S4194304x8, .f32⟩
  | .hbm, ⟨2, _⟩ => ⟨S4194304x8, .f32⟩
  | .local _ .vmem, ⟨0, _⟩ => ⟨S4096x8, .f32⟩
  | .local _ .vmem, ⟨1, _⟩ => ⟨S4096x8, .f32⟩
  | .local _ .vmem, ⟨2, _⟩ => ⟨S4096x8, .f32⟩
  | .local _ .vmem, ⟨3, _⟩ => ⟨S4096x8, .f32⟩
  | .local _ .vmem, ⟨4, _⟩ => ⟨S4096x8, .f32⟩
  | .local _ .vmem, ⟨5, _⟩ => ⟨S4096x8, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x8_S4096x8_0_0 : ∀ a, (![0, 0] : Fin 2 → Nat) a + S4096x8.size a ≤ S4096x8.size a
  h_S4096x8 : 0 < S4096x8.numel
  slices_S4096x8_o0_0_S4096x1 : S4096x8.Slices ![0, 0] S4096x1
  slices_S4096x8_o0_1_S4096x7 : S4096x8.Slices ![0, 1] S4096x7
  reduces_S4096x7_S4096 : S4096x7.Reduces [1] S4096
  shapeCasts_S4096_S4096x1 : S4096.ShapeCasts S4096x1
  broadcasts_S4096x1_S4096x7 : S4096x1.Broadcasts S4096x7
  slices_S4096x7_o0_0_S4096x1 : S4096x7.Slices ![0, 0] S4096x1
  slices_S4096x7_o0_1_S4096x1 : S4096x7.Slices ![0, 1] S4096x1
  slices_S4096x7_o0_2_S4096x1 : S4096x7.Slices ![0, 2] S4096x1
  slices_S4096x7_o0_3_S4096x1 : S4096x7.Slices ![0, 3] S4096x1
  slices_S4096x7_o0_4_S4096x1 : S4096x7.Slices ![0, 4] S4096x1
  slices_S4096x7_o0_5_S4096x1 : S4096x7.Slices ![0, 5] S4096x1
  slices_S4096x7_o0_6_S4096x1 : S4096x7.Slices ![0, 6] S4096x1
  concatenates_S4096x1_S4096x1_S4096x1_S4096x1_S4096x1_S4096x1_S4096x1_S4096x7_d1 : Shape.Concatenates [S4096x1, S4096x1, S4096x1, S4096x1, S4096x1, S4096x1, S4096x1] S4096x7 1
  concatenates_S4096x1_S4096x7_S4096x8_d1 : Shape.Concatenates [S4096x1, S4096x7] S4096x8 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S4194304x8.size a
  hwx0_0 : ∀ i : grid0.Coords, EltTy.bits .f32 = 32 ∨ (Rect.block (s := S4194304x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4194304x8.size a
  hwx0_1 : ∀ i : grid0.Coords, EltTy.bits .f32 = 32 ∨ (Rect.block (s := S4194304x8) S4096x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S4194304x8.size a
  hwx0_2 : ∀ i : grid0.Coords, EltTy.bits .f32 = 32 ∨ (Rect.block (s := S4194304x8) S4096x8.size (cc0_transform_2 i) (hinb0_2 i)).WholeWords (EltTy.packing .f32)

variable [Facts₀]

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S42 : Shape := ⟨1, ![42]⟩
abbrev S4194304x1 : Shape := ⟨2, ![4194304, 1]⟩
abbrev S4194304x7 : Shape := ⟨2, ![4194304, 7]⟩
abbrev S_ : Shape := ⟨0, ![]⟩
abbrev S4194304 : Shape := ⟨1, ![4194304]⟩
abbrev S42x1 : Shape := ⟨2, ![42, 1]⟩
abbrev S4194304x42 : Shape := ⟨2, ![4194304, 42]⟩
abbrev S1x42 : Shape := ⟨2, ![1, 42]⟩

abbrev nBuf : Space → Nat
  | .hbm => 50
  | .vmem => 0
  | .smem => 0
  | _ => 0

abbrev bufTy : (tb : Table) → Fin (tcTables nBuf tb) → BufTy
  | .hbm, ⟨0, _⟩ => ⟨S4194304x8, .f32⟩
  | .hbm, ⟨1, _⟩ => ⟨S4194304x8, .f32⟩
  | .hbm, ⟨2, _⟩ => ⟨S42, .f32⟩
  | .hbm, ⟨3, _⟩ => ⟨S42, .i32⟩
  | .hbm, ⟨4, _⟩ => ⟨S42, .i1⟩
  | .hbm, ⟨5, _⟩ => ⟨S42, .i32⟩
  | .hbm, ⟨6, _⟩ => ⟨S42, .i1⟩
  | .hbm, ⟨7, _⟩ => ⟨S42, .i32⟩
  | .hbm, ⟨8, _⟩ => ⟨S42, .i1⟩
  | .hbm, ⟨9, _⟩ => ⟨S4194304x1, .f32⟩
  | .hbm, ⟨10, _⟩ => ⟨S4194304x7, .f32⟩
  | .hbm, ⟨11, _⟩ => ⟨S4194304x1, .f32⟩
  | .hbm, ⟨12, _⟩ => ⟨S4194304x7, .f32⟩
  | .hbm, ⟨13, _⟩ => ⟨S4194304x1, .f32⟩
  | .hbm, ⟨14, _⟩ => ⟨S4194304x7, .f32⟩
  | .hbm, ⟨15, _⟩ => ⟨S_, .f32⟩
  | .hbm, ⟨16, _⟩ => ⟨S4194304, .f32⟩
  | .hbm, ⟨17, _⟩ => ⟨S4194304x1, .f32⟩
  | .hbm, ⟨18, _⟩ => ⟨S4194304x1, .f32⟩
  | .hbm, ⟨19, _⟩ => ⟨S4194304x7, .f32⟩
  | .hbm, ⟨20, _⟩ => ⟨S4194304x7, .f32⟩
  | .hbm, ⟨21, _⟩ => ⟨S4194304x7, .f32⟩
  | .hbm, ⟨22, _⟩ => ⟨S4194304x7, .f32⟩
  | .hbm, ⟨23, _⟩ => ⟨S4194304x7, .f32⟩
  | .hbm, ⟨24, _⟩ => ⟨S_, .i32⟩
  | .hbm, ⟨25, _⟩ => ⟨S42, .i32⟩
  | .hbm, ⟨26, _⟩ => ⟨S42, .i32⟩
  | .hbm, ⟨27, _⟩ => ⟨S42, .i32⟩
  | .hbm, ⟨28, _⟩ => ⟨S42x1, .i32⟩
  | .hbm, ⟨29, _⟩ => ⟨S4194304x42, .f32⟩
  | .hbm, ⟨30, _⟩ => ⟨S1x42, .f32⟩
  | .hbm, ⟨31, _⟩ => ⟨S4194304x42, .f32⟩
  | .hbm, ⟨32, _⟩ => ⟨S4194304x42, .f32⟩
  | .hbm, ⟨33, _⟩ => ⟨S_, .i32⟩
  | .hbm, ⟨34, _⟩ => ⟨S42, .i32⟩
  | .hbm, ⟨35, _⟩ => ⟨S42, .i32⟩
  | .hbm, ⟨36, _⟩ => ⟨S42, .i32⟩
  | .hbm, ⟨37, _⟩ => ⟨S42x1, .i32⟩
  | .hbm, ⟨38, _⟩ => ⟨S4194304x42, .f32⟩
  | .hbm, ⟨39, _⟩ => ⟨S4194304x42, .f32⟩
  | .hbm, ⟨40, _⟩ => ⟨S_, .f32⟩
  | .hbm, ⟨41, _⟩ => ⟨S4194304x7, .f32⟩
  | .hbm, ⟨42, _⟩ => ⟨S_, .i32⟩
  | .hbm, ⟨43, _⟩ => ⟨S42, .i32⟩
  | .hbm, ⟨44, _⟩ => ⟨S42, .i32⟩
  | .hbm, ⟨45, _⟩ => ⟨S42, .i32⟩
  | .hbm, ⟨46, _⟩ => ⟨S42x1, .i32⟩
  | .hbm, ⟨47, _⟩ => ⟨S4194304x7, .f32⟩
  | .hbm, ⟨48, _⟩ => ⟨S4194304x7, .f32⟩
  | .hbm, ⟨49, _⟩ => ⟨S4194304x8, .f32⟩
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  slices_S4194304x8_S4194304x1_0_0 : S4194304x8.Slices ![0, 0] S4194304x1
  slices_S4194304x8_S4194304x7_0_1 : S4194304x8.Slices ![0, 1] S4194304x7
  reducesTo_S4194304x7_S4194304_d1 : S4194304x7.ReducesTo [1] S4194304
  h_S_ : 0 < S_.numel
  bcast_S4194304_S4194304x1_0 : S4194304.BroadcastsInDim S4194304x1 (![0] : Fin 1 → Fin S4194304x1.rank)
  bcast_S4194304x1_S4194304x7_0_1 : S4194304x1.BroadcastsInDim S4194304x7 (![0, 1] : Fin 2 → Fin S4194304x7.rank)
  bcast_S_S42 : S_.BroadcastsInDim S42 (![] : Fin 0 → Fin S42.rank)
  bcast_S42_S42x1_0 : S42.BroadcastsInDim S42x1 (![0] : Fin 1 → Fin S42x1.rank)
  bcast_S42_S1x42_1 : S42.BroadcastsInDim S1x42 (![1] : Fin 1 → Fin S1x42.rank)
  bcast_S1x42_S4194304x42_0_1 : S1x42.BroadcastsInDim S4194304x42 (![0, 1] : Fin 2 → Fin S4194304x42.rank)
  bcast_S_S4194304x7 : S_.BroadcastsInDim S4194304x7 (![] : Fin 0 → Fin S4194304x7.rank)
  concatenates_S4194304x1_S4194304x7_S4194304x8_d1 : Shape.Concatenates [S4194304x1, S4194304x7] S4194304x8 1
  gather_S4194304x7_S42x1_S4194304x42_0_1_n_n_1_1_41943041_wf : GatherDims.WF S4194304x7 S42x1 S4194304x42 [0] [1] [] [1] [] 1 ![4194304, 1]
  scatter_S4194304x7_S42x1_S4194304x42_0_1_1_1_wf : ScatterDims.WF S4194304x7 S42x1 S4194304x42 [0] [1] [1] 1

variable [Facts₀]

def gather_S4194304x7_S42x1_S4194304x42_0_1_n_n_1_1_41943041 : GatherDims S4194304x7 S42x1 S4194304x42 where
  offsetDims := [0]
  collapsedSliceDims := [1]
  operandBatchingDims := []
  startIndicesBatchingDims := []
  startIndexMap := [1]
  indexVectorDim := 1
  sliceSizes := ![4194304, 1]
  wf := gather_S4194304x7_S42x1_S4194304x42_0_1_n_n_1_1_41943041_wf
def scatter_S4194304x7_S42x1_S4194304x42_0_1_1_1 : ScatterDims S4194304x7 S42x1 S4194304x42 where
  updateWindowDims := [0]
  insertedWindowDims := [1]
  scatterDimsToOperandDims := [1]
  indexVectorDim := 1
  wf := scatter_S4194304x7_S42x1_S4194304x42_0_1_1_1_wf

class Facts : Prop extends Facts₀ where

variable [Facts]
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.LibColumnIndex.lean ====
import Idealize.ShloMosaic.PureOps.Ideal.Laws
import Idealize.ShloMosaic.Lib.ValueIdx
import Idealize.ShloMosaic.Lib.Pipeline.Value

/-!
# Columns of a rank-2 array picked, joined and accumulated by a table of column numbers

An array of rows, `[R, C]`, whose columns are re-arranged by fixed tables. Read at an entry `(row, column)`:

* a block of columns `x[:, o : o + C']` is the array at column `o + q`;
* a column joined in front of a block of columns, and seven unit columns joined side by side, read the piece that
  holds the column;
* the host's broadcasts that re-lay a vector as a column or as a row, stretch a column or a row over a rectangle, and
  splat a scalar;
* the host's sum over the last axis with an initial value is that value plus the sum over the columns;
* `x[:, idx]` for a table `idx` of `M` column numbers (a gather that keeps the rows whole and collapses the column
  axis) reads column `idx[n]`, taken as a signed number and clamped into the array;
* `zeros_like(x).at[:, idx].add(u)` (a scatter whose body adds, rows whole, the column axis inserted) reads, on the
  extended reals, the operand's entry plus the sum of `u[row, n]` over the table positions `n` whose column number is
  the entry's column: the order in which colliding updates are added does not show in an exact sum.
-/

noncomputable section

namespace Cert.LibColumnIndex

open Idealize.ShloMosaic Idealize.ShloMosaic.ValueIdx
open scoped BigOperators

variable {α : Type}

/-! ## A block of columns, and columns joined -/

/-- The last column a block of columns reaches is inside the array. -/
theorem slice_cols_bound {R C C' o : ℕ} (h : (⟨2, ![R, C]⟩ : Shape).Slices ![0, o] ⟨2, ![R, C']⟩) (q : Fin C') :
    o + q.val < C := by
  have h1 : o + C' ≤ C := h.2 (1 : Fin 2)
  have := q.isLt
  omega

/-- Columns `o … o + C' − 1` of an `[R, C]` array, read at `(p, q)`: the array at `(p, o + q)`. -/
theorem slice_cols_apply {R C C' : ℕ} (o : ℕ) (x : (⟨2, ![R, C]⟩ : Shape).Idx → α)
    (h : (⟨2, ![R, C]⟩ : Shape).Slices ![0, o] ⟨2, ![R, C']⟩) (p : Fin R) (q : Fin C') :
    extractStridedSlice ⟨2, ![R, C']⟩ ![0, o] x h (ix2 p q) = x (ix2 p ⟨o + q.val, slice_cols_bound h q⟩) :=
  extractStridedSlice_apply _ x h _ _ fun a => by
    match a with
    | ⟨0, _⟩ => exact (Nat.zero_add _).symm
    | ⟨1, _⟩ => rfl

/-- A column joined in front of `n` columns, read in column 0: the single column. -/
theorem join_col_cols_left {R n C : ℕ} (u : (⟨2, ![R, 1]⟩ : Shape).Idx → α) (v : (⟨2, ![R, n]⟩ : Shape).Idx → α)
    (h : Shape.Concatenates [⟨2, ![R, 1]⟩, ⟨2, ![R, n]⟩] ⟨2, ![R, C]⟩ 1) (p : Fin R) (q : Fin C) (hq : q.val = 0) :
    concatenate ⟨2, ![R, C]⟩ 1 [⟨⟨2, ![R, 1]⟩, u⟩, ⟨⟨2, ![R, n]⟩, v⟩] h (ix2 p q) = u (ix2 p (0 : Fin 1)) :=
  concatenate_pair_apply_left 1 u v h _ rfl _ fun b => by
    match b with
    | ⟨0, _⟩ => rfl
    | ⟨1, _⟩ => exact hq.symm

/-- A column joined in front of `n` columns, read in column `k + 1`: column `k` of the block. -/
theorem join_col_cols_right {R n C : ℕ} (u : (⟨2, ![R, 1]⟩ : Shape).Idx → α) (v : (⟨2, ![R, n]⟩ : Shape).Idx → α)
    (h : Shape.Concatenates [⟨2, ![R, 1]⟩, ⟨2, ![R, n]⟩] ⟨2, ![R, C]⟩ 1) (p : Fin R) (q : Fin C) (k : Fin n)
    (hq : q.val = k.val + 1) :
    concatenate ⟨2, ![R, C]⟩ 1 [⟨⟨2, ![R, 1]⟩, u⟩, ⟨⟨2, ![R, n]⟩, v⟩] h (ix2 p q) = v (ix2 p k) :=
  concatenate_pair_apply_right 1 u v h _ rfl rfl _
    (fun b hb => by
      match b, hb with
      | ⟨0, _⟩, _ => rfl
      | ⟨1, _⟩, hb => exact absurd rfl hb)
    (by show k.val + 1 = q.val; omega)

/-- Seven unit columns joined side by side, read at `(p, k)`: column `k`'s one entry of row `p`. -/
theorem join_cols7_apply {R : ℕ} (c0 c1 c2 c3 c4 c5 c6 : (⟨2, ![R, 1]⟩ : Shape).Idx → α)
    (h : Shape.Concatenates [⟨2, ![R, 1]⟩, ⟨2, ![R, 1]⟩, ⟨2, ![R, 1]⟩, ⟨2, ![R, 1]⟩, ⟨2, ![R, 1]⟩, ⟨2, ![R, 1]⟩, ⟨2, ![R, 1]⟩]
      ⟨2, ![R, 7]⟩ 1) (p : Fin R) (k : Fin 7) :
    concatenate ⟨2, ![R, 7]⟩ 1 [⟨⟨2, ![R, 1]⟩, c0⟩, ⟨⟨2, ![R, 1]⟩, c1⟩, ⟨⟨2, ![R, 1]⟩, c2⟩, ⟨⟨2, ![R, 1]⟩, c3⟩,
        ⟨⟨2, ![R, 1]⟩, c4⟩, ⟨⟨2, ![R, 1]⟩, c5⟩, ⟨⟨2, ![R, 1]⟩, c6⟩] h (ix2 p k)
      = ![c0 (ix2 p (0 : Fin 1)), c1 (ix2 p (0 : Fin 1)), c2 (ix2 p (0 : Fin 1)), c3 (ix2 p (0 : Fin 1)),
          c4 (ix2 p (0 : Fin 1)), c5 (ix2 p (0 : Fin 1)), c6 (ix2 p (0 : Fin 1))] k := by
  have side : ∀ b : Fin 2, b ≠ (1 : Fin 2) → ((ix2 p (0 : Fin 1)) b).val = ((ix2 p k) b).val := fun b hb => by
    match b, hb with
    | ⟨0, _⟩, _ => rfl
    | ⟨1, _⟩, hb => exact absurd rfl hb
  have piece : ∀ (n : ℕ) (hn : n < 7) (c : (⟨2, ![R, 1]⟩ : Shape).Idx → α),
      ([⟨⟨2, ![R, 1]⟩, c0⟩, ⟨⟨2, ![R, 1]⟩, c1⟩, ⟨⟨2, ![R, 1]⟩, c2⟩, ⟨⟨2, ![R, 1]⟩, c3⟩, ⟨⟨2, ![R, 1]⟩, c4⟩,
        ⟨⟨2, ![R, 1]⟩, c5⟩, ⟨⟨2, ![R, 1]⟩, c6⟩] : List ((s : Shape) × (s.Idx → α)))[n]'hn = ⟨⟨2, ![R, 1]⟩, c⟩ →
      k.val = n →
      concatenate ⟨2, ![R, 7]⟩ 1 [⟨⟨2, ![R, 1]⟩, c0⟩, ⟨⟨2, ![R, 1]⟩, c1⟩, ⟨⟨2, ![R, 1]⟩, c2⟩, ⟨⟨2, ![R, 1]⟩, c3⟩,
        ⟨⟨2, ![R, 1]⟩, c4⟩, ⟨⟨2, ![R, 1]⟩, c5⟩, ⟨⟨2, ![R, 1]⟩, c6⟩] h (ix2 p k) = c (ix2 p (0 : Fin 1)) :=
    fun n hn c hc hk =>
      concatenate_apply_piece (t := ⟨2, ![R, 7]⟩) 1
        [⟨⟨2, ![R, 1]⟩, c0⟩, ⟨⟨2, ![R, 1]⟩, c1⟩, ⟨⟨2, ![R, 1]⟩, c2⟩, ⟨⟨2, ![R, 1]⟩, c3⟩, ⟨⟨2, ![R, 1]⟩, c4⟩,
          ⟨⟨2, ![R, 1]⟩, c5⟩, ⟨⟨2, ![R, 1]⟩, c6⟩] h (ix2 p k) n hn ⟨2, ![R, 1]⟩ c hc rfl n
        (by
          interval_cases n <;> rfl)
        (ix2 p (0 : Fin 1)) side (by show n + 0 = k.val; omega)
  match k with
  | ⟨0, _⟩ => exact piece 0 (by omega) c0 rfl rfl
  | ⟨1, _⟩ => exact piece 1 (by omega) c1 rfl rfl
  | ⟨2, _⟩ => exact piece 2 (by omega) c2 rfl rfl
  | ⟨3, _⟩ => exact piece 3 (by omega) c3 rfl rfl
  | ⟨4, _⟩ => exact piece 4 (by omega) c4 rfl rfl
  | ⟨5, _⟩ => exact piece 5 (by omega) c5 rfl rfl
  | ⟨6, _⟩ => exact piece 6 (by omega) c6 rfl rfl

/-! ## The host's broadcasts between vectors, columns, rows and rectangles -/

/-- A vector laid as a column: at `(i, u)` the vector at `i`. -/
theorem bcast_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ fun ax => by
    match ax with
    | ⟨0, _⟩ =>
      show i.val = if a = 1 then 0 else i.val
      split
      · have := i.isLt; omega
      · rfl

/-- A vector laid as a row: at `(u, n)` the vector at `n`. -/
theorem bcast_vec_row_apply {a : ℕ} (x : (⟨1, ![a]⟩ : Shape).Idx → α)
    (h : (⟨1, ![a]⟩ : Shape).BroadcastsInDim ⟨2, ![1, a]⟩ ![1]) (u : Fin 1) (n : Fin a) :
    broadcastInDim ⟨2, ![1, a]⟩ ![1] h x (ix2 u n) = x (ix1 n) :=
  broadcastInDim_apply _ h x _ _ fun ax => by
    match ax with
    | ⟨0, _⟩ =>
      show n.val = if a = 1 then 0 else n.val
      split
      · have := n.isLt; omega
      · rfl

/-- A column stretched over `b` columns: at `(i, j)` the column at `(i, 0)`. -/
theorem bcast_col_rect_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ fun ax => by
    match ax with
    | ⟨0, _⟩ =>
      show i.val = if a = 1 then 0 else i.val
      split
      · have := i.isLt; omega
      · rfl
    | ⟨1, _⟩ => rfl

/-- A row stretched over `a` rows: at `(i, j)` the row at `(0, j)`. -/
theorem bcast_row_rect_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ fun ax => by
    match ax with
    | ⟨0, _⟩ => rfl
    | ⟨1, _⟩ =>
      show j.val = if b = 1 then 0 else j.val
      split
      · have := j.isLt; omega
      · rfl

/-- A scalar splat to any shape reads the scalar. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x _ _ fun ax => ax.elim0

/-! ## The host's sum over the last axis -/

/-- On the extended reals the host's `reduce add` of an `[a, b]` array over axis 1 from an initial value is, at `i`,
    the initial value plus the sum over `k` of the array at `(i, k)`. -/
theorem hostRowSum_apply {a b : ℕ} {φ : FTy} (x : FVec Ideal (⟨2, ![a, b]⟩ : Shape) φ)
    (init : (⟨0, ![]⟩ : Shape).Idx → Ideal φ) (h' : (⟨2, ![a, b]⟩ : Shape).ReducesTo [1] ⟨1, ![a]⟩)
    (hu : 0 < (⟨0, ![]⟩ : Shape).numel) (i : Fin a) :
    Host.reduceAdd x init h' hu (ix1 i) = init (Shape.Idx.first hu) + ∑ k : Fin b, x (ix2 i k) := by
  have h : (⟨2, ![a, b]⟩ : Shape).Reduces [1] ⟨1, ![a]⟩ := ⟨h'.1, Nat.one_pos, h'.2⟩
  refine (Ideal.hostReduceAdd_single h' h x (init (Shape.Idx.first hu)) (ix1 i)).trans ?_
  refine congrArg (init (Shape.Idx.first hu) + ·) ?_
  refine Finset.sum_congr rfl fun k _ => congrArg x (funext fun ax => Fin.ext ?_)
  match ax with
  | ⟨0, _⟩ => rfl
  | ⟨1, _⟩ => rfl

end Cert.LibColumnIndex

end
-- ==== Proof.Octonion.lean ====
import Idealize.ShloMosaic.PureOps.Ideal

/-!
# The Cayley–Dickson product of octonions, one row at a time

An octonion is a row of eight extended reals: a real part (entry 0) and seven imaginary parts (entries 1 … 7, unit
`k` at entry `1 + k`). The product of rows `a` and `b` has

* real part `a₀·b₀ − ∑ₖ aₖ·bₖ` over the seven imaginary units, and
* imaginary part `k` equal to `(a₀·bₖ + b₀·aₖ)` plus the cross term: the sum, over the ordered pairs `(i, j)` of distinct
  units whose product is `± eₖ`, of `(± aᵢ)·bⱼ`.

The 42 ordered pairs are listed in lexicographic order; position `n` carries its left unit, its right unit, the unit
their product lands on and the sign (the Fano-plane structure constants), each as the 32-bit word a program holds.
Every unit is the product of exactly six ordered pairs. Written as a finite sum the cross term needs no order; written
as six additions from left to right in the order of the positions it is the same extended real, since addition there is
commutative and associative.
-/

noncomputable section

namespace Cert.Octonion

open Idealize.ShloMosaic
open scoped BigOperators

/-- Position `n`'s left unit `i`: the pairs are grouped six to a left unit. -/
abbrev leftW : Fin 42 → BitVec 32 := fun
  | 0 => 0#32 | 1 => 0#32 | 2 => 0#32 | 3 => 0#32 | 4 => 0#32 | 5 => 0#32
  | 6 => 1#32 | 7 => 1#32 | 8 => 1#32 | 9 => 1#32 | 10 => 1#32 | 11 => 1#32
  | 12 => 2#32 | 13 => 2#32 | 14 => 2#32 | 15 => 2#32 | 16 => 2#32 | 17 => 2#32
  | 18 => 3#32 | 19 => 3#32 | 20 => 3#32 | 21 => 3#32 | 22 => 3#32 | 23 => 3#32
  | 24 => 4#32 | 25 => 4#32 | 26 => 4#32 | 27 => 4#32 | 28 => 4#32 | 29 => 4#32
  | 30 => 5#32 | 31 => 5#32 | 32 => 5#32 | 33 => 5#32 | 34 => 5#32 | 35 => 5#32
  | 36 => 6#32 | 37 => 6#32 | 38 => 6#32 | 39 => 6#32 | 40 => 6#32 | 41 => 6#32
  | _ => 0#32

/-- Position `n`'s right unit `j ≠ i`, ascending within each group. -/
abbrev rightW : Fin 42 → BitVec 32 := fun
  | 0 => 1#32 | 1 => 2#32 | 2 => 3#32 | 3 => 4#32 | 4 => 5#32 | 5 => 6#32
  | 6 => 0#32 | 7 => 2#32 | 8 => 3#32 | 9 => 4#32 | 10 => 5#32 | 11 => 6#32
  | 12 => 0#32 | 13 => 1#32 | 14 => 3#32 | 15 => 4#32 | 16 => 5#32 | 17 => 6#32
  | 18 => 0#32 | 19 => 1#32 | 20 => 2#32 | 21 => 4#32 | 22 => 5#32 | 23 => 6#32
  | 24 => 0#32 | 25 => 1#32 | 26 => 2#32 | 27 => 3#32 | 28 => 5#32 | 29 => 6#32
  | 30 => 0#32 | 31 => 1#32 | 32 => 2#32 | 33 => 3#32 | 34 => 4#32 | 35 => 6#32
  | 36 => 0#32 | 37 => 1#32 | 38 => 2#32 | 39 => 3#32 | 40 => 4#32 | 41 => 5#32
  | _ => 0#32

/-- The unit `k` with `eᵢ·eⱼ = ± eₖ` at position `n`. -/
abbrev prodW : Fin 42 → BitVec 32 := fun
  | 0 => 2#32 | 1 => 1#32 | 2 => 4#32 | 3 => 3#32 | 4 => 6#32 | 5 => 5#32
  | 6 => 2#32 | 7 => 0#32 | 8 => 5#32 | 9 => 6#32 | 10 => 3#32 | 11 => 4#32
  | 12 => 1#32 | 13 => 0#32 | 14 => 6#32 | 15 => 5#32 | 16 => 4#32 | 17 => 3#32
  | 18 => 4#32 | 19 => 5#32 | 20 => 6#32 | 21 => 0#32 | 22 => 1#32 | 23 => 2#32
  | 24 => 3#32 | 25 => 6#32 | 26 => 5#32 | 27 => 0#32 | 28 => 2#32 | 29 => 1#32
  | 30 => 6#32 | 31 => 3#32 | 32 => 4#32 | 33 => 1#32 | 34 => 2#32 | 35 => 0#32
  | 36 => 5#32 | 37 => 4#32 | 38 => 3#32 | 39 => 2#32 | 40 => 1#32 | 41 => 0#32
  | _ => 0#32

/-- The sign at position `n`, as the single-precision word of `+1.0` or `−1.0`. -/
abbrev signW : Fin 42 → BitVec 32 := fun
  | 0 => 0x3F800000#32 | 1 => 0xBF800000#32 | 2 => 0x3F800000#32 | 3 => 0xBF800000#32 | 4 => 0xBF800000#32 | 5 => 0x3F800000#32
  | 6 => 0xBF800000#32 | 7 => 0x3F800000#32 | 8 => 0x3F800000#32 | 9 => 0x3F800000#32 | 10 => 0xBF800000#32 | 11 => 0xBF800000#32
  | 12 => 0x3F800000#32 | 13 => 0xBF800000#32 | 14 => 0x3F800000#32 | 15 => 0xBF800000#32 | 16 => 0x3F800000#32 | 17 => 0xBF800000#32
  | 18 => 0xBF800000#32 | 19 => 0xBF800000#32 | 20 => 0xBF800000#32 | 21 => 0x3F800000#32 | 22 => 0x3F800000#32 | 23 => 0x3F800000#32
  | 24 => 0x3F800000#32 | 25 => 0xBF800000#32 | 26 => 0x3F800000#32 | 27 => 0xBF800000#32 | 28 => 0xBF800000#32 | 29 => 0x3F800000#32
  | 30 => 0x3F800000#32 | 31 => 0x3F800000#32 | 32 => 0xBF800000#32 | 33 => 0xBF800000#32 | 34 => 0x3F800000#32 | 35 => 0xBF800000#32
  | 36 => 0xBF800000#32 | 37 => 0x3F800000#32 | 38 => 0x3F800000#32 | 39 => 0xBF800000#32 | 40 => 0xBF800000#32 | 41 => 0x3F800000#32
  | _ => 0#32

/-- A unit read off a word the way a gather reads a column number: signed, clamped into `[0, 6]`. -/
abbrev unitOf (wd : BitVec 32) : Fin 7 := ⟨min wd.toInt.toNat (7 - 1), by omega⟩

/-- Imaginary unit `k` sits at entry `1 + k` of a row. -/
abbrev im (k : Fin 7) : Fin 8 := ⟨1 + k.val, by omega⟩

/-- Position `n`'s contribution to the cross term: `(± aᵢ)·bⱼ`. -/
def term (a b : Fin 8 → EReal) (n : Fin 42) : EReal :=
  (Ideal.ofBits .f32 (signW n) * a (im (unitOf (leftW n)))) * b (im (unitOf (rightW n)))

/-- The cross term on unit `k`: the sum of the contributions of the positions whose product lands on `k`. -/
def cross (a b : Fin 8 → EReal) (k : Fin 7) : EReal :=
  ∑ n ∈ Finset.univ.filter (fun n : Fin 42 => (prodW n).toInt = ((k.val : ℕ) : ℤ)), term a b n

/-- The same cross terms as six additions from left to right, the positions in ascending order. -/
def crossSeq (a b : Fin 8 → EReal) : Fin 7 → EReal :=
  ![((((term a b 7 + term a b 13) + term a b 21) + term a b 27) + term a b 35) + term a b 41,
    ((((term a b 1 + term a b 12) + term a b 22) + term a b 29) + term a b 33) + term a b 40,
    ((((term a b 0 + term a b 6) + term a b 23) + term a b 28) + term a b 34) + term a b 39,
    ((((term a b 3 + term a b 10) + term a b 17) + term a b 24) + term a b 31) + term a b 38,
    ((((term a b 2 + term a b 11) + term a b 16) + term a b 18) + term a b 32) + term a b 37,
    ((((term a b 5 + term a b 8) + term a b 15) + term a b 19) + term a b 26) + term a b 36,
    ((((term a b 4 + term a b 9) + term a b 14) + term a b 20) + term a b 25) + term a b 30]

/-- The product of two rows, the cross term taken as `X`. -/
def mulWith (X : (Fin 8 → EReal) → (Fin 8 → EReal) → Fin 7 → EReal) (a b : Fin 8 → EReal) : Fin 8 → EReal :=
  Fin.cases (a 0 * b 0 - ∑ k : Fin 7, a (im k) * b (im k)) (fun k => (a 0 * b (im k) + b 0 * a (im k)) + X a b k)

/-- The octonion product of two rows. -/
def mul (a b : Fin 8 → EReal) : Fin 8 → EReal := mulWith cross a b

/-! ## Each unit is the product of six ordered pairs, and the six additions are their sum -/

theorem lands0 : (Finset.univ.filter fun n : Fin 42 => (prodW n).toInt = (((0 : Fin 7).val : ℕ) : ℤ)) = {7, 13, 21, 27, 35, 41} := by decide
theorem lands1 : (Finset.univ.filter fun n : Fin 42 => (prodW n).toInt = (((1 : Fin 7).val : ℕ) : ℤ)) = {1, 12, 22, 29, 33, 40} := by decide
theorem lands2 : (Finset.univ.filter fun n : Fin 42 => (prodW n).toInt = (((2 : Fin 7).val : ℕ) : ℤ)) = {0, 6, 23, 28, 34, 39} := by decide
theorem lands3 : (Finset.univ.filter fun n : Fin 42 => (prodW n).toInt = (((3 : Fin 7).val : ℕ) : ℤ)) = {3, 10, 17, 24, 31, 38} := by decide
theorem lands4 : (Finset.univ.filter fun n : Fin 42 => (prodW n).toInt = (((4 : Fin 7).val : ℕ) : ℤ)) = {2, 11, 16, 18, 32, 37} := by decide
theorem lands5 : (Finset.univ.filter fun n : Fin 42 => (prodW n).toInt = (((5 : Fin 7).val : ℕ) : ℤ)) = {5, 8, 15, 19, 26, 36} := by decide
theorem lands6 : (Finset.univ.filter fun n : Fin 42 => (prodW n).toInt = (((6 : Fin 7).val : ℕ) : ℤ)) = {4, 9, 14, 20, 25, 30} := by decide

/-- A sum over six distinct positions is the six terms added from left to right. -/
theorem sum_six (f : Fin 42 → EReal) (n₁ n₂ n₃ n₄ n₅ n₆ : Fin 42)
    (h₁ : n₁ ∉ ({n₂, n₃, n₄, n₅, n₆} : Finset (Fin 42))) (h₂ : n₂ ∉ ({n₃, n₄, n₅, n₆} : Finset (Fin 42)))
    (h₃ : n₃ ∉ ({n₄, n₅, n₆} : Finset (Fin 42))) (h₄ : n₄ ∉ ({n₅, n₆} : Finset (Fin 42))) (h₅ : n₅ ∉ ({n₆} : Finset (Fin 42))) :
    ∑ n ∈ ({n₁, n₂, n₃, n₄, n₅, n₆} : Finset (Fin 42)), f n = ((((f n₁ + f n₂) + f n₃) + f n₄) + f n₅) + f n₆ := by
  rw [Finset.sum_insert h₁, Finset.sum_insert h₂, Finset.sum_insert h₃, Finset.sum_insert h₄, Finset.sum_insert h₅,
    Finset.sum_singleton]
  simp only [add_assoc]

theorem crossSeq_eq (a b : Fin 8 → EReal) (k : Fin 7) : crossSeq a b k = cross a b k := by
  match k with
  | ⟨0, _⟩ => exact ((congrArg (fun s => ∑ n ∈ s, term a b n) lands0).trans
      (sum_six (term a b) 7 13 21 27 35 41 (by decide) (by decide) (by decide) (by decide) (by decide))).symm
  | ⟨1, _⟩ => exact ((congrArg (fun s => ∑ n ∈ s, term a b n) lands1).trans
      (sum_six (term a b) 1 12 22 29 33 40 (by decide) (by decide) (by decide) (by decide) (by decide))).symm
  | ⟨2, _⟩ => exact ((congrArg (fun s => ∑ n ∈ s, term a b n) lands2).trans
      (sum_six (term a b) 0 6 23 28 34 39 (by decide) (by decide) (by decide) (by decide) (by decide))).symm
  | ⟨3, _⟩ => exact ((congrArg (fun s => ∑ n ∈ s, term a b n) lands3).trans
      (sum_six (term a b) 3 10 17 24 31 38 (by decide) (by decide) (by decide) (by decide) (by decide))).symm
  | ⟨4, _⟩ => exact ((congrArg (fun s => ∑ n ∈ s, term a b n) lands4).trans
      (sum_six (term a b) 2 11 16 18 32 37 (by decide) (by decide) (by decide) (by decide) (by decide))).symm
  | ⟨5, _⟩ => exact ((congrArg (fun s => ∑ n ∈ s, term a b n) lands5).trans
      (sum_six (term a b) 5 8 15 19 26 36 (by decide) (by decide) (by decide) (by decide) (by decide))).symm
  | ⟨6, _⟩ => exact ((congrArg (fun s => ∑ n ∈ s, term a b n) lands6).trans
      (sum_six (term a b) 4 9 14 20 25 30 (by decide) (by decide) (by decide) (by decide) (by decide))).symm

/-- So the product computed with left-to-right additions is the octonion product. -/
theorem mulWith_crossSeq (a b : Fin 8 → EReal) : mulWith crossSeq a b = mul a b := by
  unfold mul mulWith
  funext i
  induction i using Fin.cases with
  | zero => simp only [Fin.cases_zero]
  | succ k => simp only [Fin.cases_succ]; rw [crossSeq_eq]

end Cert.Octonion

end
-- ==== Proof.OctonionRows.lean ====
import proofs.«121008_j43224550867321_1_alg».proof.Proof.Octonion
import Idealize.ShloMosaic.Lib.ValueIdx

/-!
# An array of octonions multiplied row by row

An `[R, 8]` array holds `R` octonions, one to a row. The product of two such arrays is taken row by row: entry
`(p, q)` of the result is entry `q` of the product of row `p` of one with row `p` of the other.
-/

noncomputable section

namespace Cert.Octonion

open Idealize.ShloMosaic Idealize.ShloMosaic.ValueIdx

/-- Row `p` of an array of octonions. -/
abbrev rowOf {R : ℕ} (x : (⟨2, ![R, 8]⟩ : Shape).Idx → EReal) (p : Fin R) : Fin 8 → EReal := fun c => x (ix2 p c)

/-- Two arrays of octonions multiplied row by row, by the row product `f`. -/
def rowsWith {R : ℕ} (f : (Fin 8 → EReal) → (Fin 8 → EReal) → Fin 8 → EReal)
    (a b : (⟨2, ![R, 8]⟩ : Shape).Idx → EReal) : (⟨2, ![R, 8]⟩ : Shape).Idx → EReal :=
  fun i => f (rowOf a (i 0)) (rowOf b (i 0)) (i 1)

theorem rowsWith_apply {R : ℕ} (f : (Fin 8 → EReal) → (Fin 8 → EReal) → Fin 8 → EReal)
    (a b : (⟨2, ![R, 8]⟩ : Shape).Idx → EReal) (p : Fin R) (q : Fin 8) :
    rowsWith f a b (ix2 p q) = f (rowOf a p) (rowOf b p) q := rfl

/-- An array is determined by its entries at coordinates. -/
theorem eq_rowsWith {R : ℕ} (f : (Fin 8 → EReal) → (Fin 8 → EReal) → Fin 8 → EReal)
    (a b v : (⟨2, ![R, 8]⟩ : Shape).Idx → EReal)
    (h : ∀ (p : Fin R) (q : Fin 8), v (ix2 p q) = f (rowOf a p) (rowOf b p) q) : v = rowsWith f a b := by
  funext i
  obtain ⟨p, q, rfl⟩ : ∃ (p : Fin R) (q : Fin 8), i = ix2 p q := ⟨i 0, i 1, eq_ix2 i⟩
  exact h p q

/-- Left-to-right cross sums give the same array of products. -/
theorem rowsWith_crossSeq {R : ℕ} (a b : (⟨2, ![R, 8]⟩ : Shape).Idx → EReal) :
    rowsWith (mulWith crossSeq) a b = rowsWith mul a b := by
  unfold rowsWith
  funext i
  rw [mulWith_crossSeq]

end Cert.Octonion

end
-- ==== Proof.KernelRow.lean ====
import proofs.«121008_j43224550867321_1_alg».proof.Proof.Gen.KernelIdeal.Frame
import proofs.«121008_j43224550867321_1_alg».proof.Proof.LibKeepdims
import proofs.«121008_j43224550867321_1_alg».proof.Proof.LibColumnIndex
import proofs.«121008_j43224550867321_1_alg».proof.Proof.OctonionRows

/-!
# One grid point of the kernel multiplies 4096 rows

The body loads a `[4096, 8]` block of each argument and stores one `[4096, 8]` block. Entry `(p, q)` of the stored block
depends on row `p` of the two loaded blocks only, and is entry `q` of the octonion product of those two rows, with
each cross term added up from left to right in the order of the table's positions:

* column 0 is `a₀·b₀` minus the lane sum of `a_im·b_im`, kept as a column;
* column `1 + k` is `a₀·bₖ + b₀·aₖ` (the real columns stretched over the seven imaginary ones) plus column `k` of the
  seven cross columns, each built from six products `(±1·aᵢ)·bⱼ` of unit columns cut from the blocks.
-/

noncomputable section

namespace Cert.KernelIdeal.Row

open Cert.KernelIdeal Cert.KernelIdeal.Gen Idealize.ShloMosaic Idealize.ShloMosaic.ValueIdx
open Cert.LibKeepdims Cert.LibColumnIndex Cert.Octonion

theorem origin : (![0, 0] : Fin 2 → Nat) = fun _ => 0 := funext fun a => by fin_cases a <;> rfl

/-- The real column of the stored block. -/
theorem real_apply (x0 x1 : Vec Ideal S4096x8 .f32) (p : Fin 4096) :
    k0_pay6 x0 x1 (ix2 p (0 : Fin 1))
      = rowOf x0 p 0 * rowOf x1 p 0 - ∑ k : Fin 7, rowOf x0 p (im k) * rowOf x1 p (im k) := by
  unfold k0_pay6 k0_pay2 k0_pay3 k0_pay4 k0_pay5
  dsimp only
  refine (subf_apply _ _ _).trans ?_
  refine congrArg₂ (· - ·) ?_ ?_
  · simp only [mulf_apply, slice_cols_apply]
    rfl
  · refine (shapeCast_a_a1_apply _ _ p 0).trans ?_
    refine (rowSum_apply _ _ _ _ _ p).trans ?_
    refine Finset.sum_congr rfl fun k _ => ?_
    simp only [mulf_apply, slice_cols_apply]

/-- The linear part of the stored block's imaginary columns. -/
theorem linear_apply (x0 x1 : Vec Ideal S4096x8 .f32) (p : Fin 4096) (k : Fin 7) :
    k0_pay7 x0 x1 (ix2 p k) = rowOf x0 p 0 * rowOf x1 p (im k) + rowOf x1 p 0 * rowOf x0 p (im k) := by
  unfold k0_pay7 k0_pay2 k0_pay3 k0_pay4 k0_pay5
  dsimp only
  simp only [addf_apply, mulf_apply, broadcastTo_a1_ab_apply, slice_cols_apply]
  rfl

/-- Seven entries equal one by one make equal vectors. -/
theorem vec7_congr {α : Type} {a0 a1 a2 a3 a4 a5 a6 b0 b1 b2 b3 b4 b5 b6 : α} (h0 : a0 = b0) (h1 : a1 = b1) (h2 : a2 = b2)
    (h3 : a3 = b3) (h4 : a4 = b4) (h5 : a5 = b5) (h6 : a6 = b6) :
    (![a0, a1, a2, a3, a4, a5, a6] : Fin 7 → α) = ![b0, b1, b2, b3, b4, b5, b6] := by
  rw [h0, h1, h2, h3, h4, h5, h6]

/-- One cross column at row `p`: every factor is a unit column cut from a block, so the column's entry is six products
    of entries of row `p`, added from left to right. -/
local macro "cross_column" : tactic => `(tactic| (
  simp only [k0_pay4, k0_pay5, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38,
    k0_pay39, k0_pay40, k0_pay41, k0_pay42, k0_pay43, addf_apply, mulf_apply, broadcast_apply, slice_cols_apply]
  rfl))

/-- THE STORED BLOCK at `(p, q)`: entry `q` of the product of row `p` of the two loaded blocks. -/
theorem out_apply (x0 x1 : Vec Ideal S4096x8 .f32) (p : Fin 4096) (q : Fin 8) :
    out0_2 x0 x1 (ix2 p q) = mulWith crossSeq (rowOf x0 p) (rowOf x1 p) q := by
  unfold out0_2
  rw [View.canon_unit_zero origin]
  simp only [View.ld_unit_zero (S := S4096x8) origin]
  unfold k0_pay1
  induction q using Fin.cases with
  | zero =>
    refine (join_col_cols_left _ _ _ p 0 rfl).trans ?_
    simp only [mulWith, Fin.cases_zero]
    exact real_apply x0 x1 p
  | succ k =>
    refine (join_col_cols_right _ _ _ p k.succ k (Fin.val_succ k)).trans ?_
    refine (addf_apply _ _ _).trans ?_
    simp only [mulWith, Fin.cases_succ]
    refine congrArg₂ (· + ·) (linear_apply x0 x1 p k) ?_
    refine (join_cols7_apply _ _ _ _ _ _ _ _ p k).trans ?_
    unfold crossSeq term
    refine congrFun (vec7_congr ?_ ?_ ?_ ?_ ?_ ?_ ?_) k
    · cross_column
    · cross_column
    · cross_column
    · cross_column
    · cross_column
    · cross_column
    · cross_column

/-- So the stored block is the two loaded blocks multiplied row by row. -/
theorem out_eq (x0 x1 : Vec Ideal S4096x8 .f32) : out0_2 x0 x1 = rowsWith (mulWith crossSeq) x0 x1 :=
  eq_rowsWith _ x0 x1 _ (out_apply x0 x1)

end Cert.KernelIdeal.Row

end
-- ==== Proof.KernelValue.lean ====
import proofs.«121008_j43224550867321_1_alg».proof.Proof.Gen.KernelIdeal.Value
import proofs.«121008_j43224550867321_1_alg».proof.Proof.KernelRow

/-!
# The kernel's result array: the arguments multiplied row by row

The grid has 1024 points; point `t` loads rows `4096·t … 4096·t + 4095` of each argument (all eight columns) and writes
the same rows of the result. Row `p` of a point's blocks is row `4096·t + p` of the arrays, a stored block is its two
loaded blocks multiplied row by row, and the 1024 blocks tile the result array (row `r` lies in the block of point
`r / 4096`). So after the run the result array is the argument arrays multiplied row by row.
-/

noncomputable section

namespace Cert.KernelIdeal.Whole

open Cert.KernelIdeal Cert.KernelIdeal.Gen Cert.KernelIdeal.Row Idealize.ShloMosaic Idealize.ShloMosaic.TcCoe
  Idealize.SL.Sem Idealize.ShloMosaic.ValueIdx Cert.Octonion
open Idealize.ShloMosaic.Pipeline (Dat)

variable (m : (ℓ : Loc nD τ sig) → Buf (Elt Ideal) ℓ) (ρ : Dev nD → PrngReg)

/-- The printed index maps, decided over the grid: all three windows take block `t` of the rows and block 0 of the
    columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of point `t`'s blocks is row `4096·t + p` of the arrays. -/
abbrev rowAt (t : Fin cfg0.N) (p : Fin 4096) : Fin 4194304 :=
  ⟨t.val * 4096 + p.val, by have : t.val < 1024 := t.isLt; have := p.isLt; omega⟩

/-- The first argument's block at point `t`, entry `(p, q)`: the argument at `(4096·t + p, q)`. -/
theorem blk0_apply (c : Dev nD) (t : Fin cfg0.N) (p : Fin 4096) (q : Fin 8) :
    iblk m c 0 t (ix2 p q) = m ((c : Thread nD τ).loc main_arg0) (ix2 (rowAt t p) q) := by
  show V m c main_arg0 (((cfg0.win 0).blk t).view.emb (ix2 p q)) = _
  refine congrArg (V m c main_arg0) (funext fun a => Fin.ext ?_)
  obtain ⟨e00, e01, -, -, -, -⟩ := idx_facts t
  match a with
  | ⟨0, _⟩ => show win0_0.index t (0 : Fin 2) * 4096 + 1 * p.val = t.val * 4096 + p.val; rw [e00]; omega
  | ⟨1, _⟩ => show win0_0.index t (1 : Fin 2) * 8 + 1 * q.val = q.val; rw [e01]; omega

/-- The second argument's block at point `t`, entry `(p, q)`: the argument at `(4096·t + p, q)`. -/
theorem blk1_apply (c : Dev nD) (t : Fin cfg0.N) (p : Fin 4096) (q : Fin 8) :
    iblk m c 1 t (ix2 p q) = m ((c : Thread nD τ).loc main_arg1) (ix2 (rowAt t p) q) := by
  show V m c main_arg1 (((cfg0.win 1).blk t).view.emb (ix2 p q)) = _
  refine congrArg (V m c main_arg1) (funext fun a => Fin.ext ?_)
  obtain ⟨-, -, e10, e11, -, -⟩ := idx_facts t
  match a with
  | ⟨0, _⟩ => show win0_1.index t (0 : Fin 2) * 4096 + 1 * p.val = t.val * 4096 + p.val; rw [e10]; omega
  | ⟨1, _⟩ => show win0_1.index t (1 : Fin 2) * 8 + 1 * q.val = q.val; rw [e11]; omega

/-- Entry `(p, q)` of the result's block at point `t` is the result array's entry `(4096·t + p, q)`. -/
theorem emb2_apply (t : Fin cfg0.N) (p : Fin 4096) (q : Fin 8) :
    ((cfg0.win 2).blk t).view.emb (ix2 p q) = ix2 (rowAt t p) q := by
  funext a
  refine Fin.ext ?_
  obtain ⟨-, -, -, -, e20, e21⟩ := idx_facts t
  match a with
  | ⟨0, _⟩ => show win0_2.index t (0 : Fin 2) * 4096 + 1 * p.val = t.val * 4096 + p.val; rw [e20]; omega
  | ⟨1, _⟩ => show win0_2.index t (1 : Fin 2) * 8 + 1 * q.val = q.val; rw [e21]; omega

/-- WHAT POINT `t` WRITES BACK is block `t` of the arguments multiplied row by row. -/
theorem flushed_eq (c : Dev nD) (t : Fin cfg0.N) :
    (dats m 0 c).flushed 2 t = ((cfg0.win 2).blk t).view.read (Elt Ideal)
      (rowsWith (mulWith crossSeq) (m ((c : Thread nD τ).loc main_arg0)) (m ((c : Thread nD τ).loc main_arg1))) := by
  show (cfg0.win 2).cut (grid0.coords t) ((dats m 0 c).after 2 t) = _
  rw [after0_2]
  funext j
  revert j
  show ∀ j : S4096x8.Idx, out0_2 (iblk m c 0 t) (iblk m c 1 t) j
    = rowsWith (mulWith crossSeq) (m ((c : Thread nD τ).loc main_arg0)) (m ((c : Thread nD τ).loc main_arg1))
        (((cfg0.win 2).blk t).view.emb j)
  intro j
  obtain ⟨p, q, rfl⟩ : ∃ (p : Fin 4096) (q : Fin 8), j = ix2 p q := ⟨j 0, j 1, eq_ix2 j⟩
  refine (out_apply _ _ p q).trans ?_
  refine Eq.trans ?_ (congrArg (rowsWith (mulWith crossSeq) (m ((c : Thread nD τ).loc main_arg0))
    (m ((c : Thread nD τ).loc main_arg1))) (emb2_apply t p q).symm)
  rw [rowsWith_apply]
  exact congrArg₂ (fun u v => mulWith crossSeq u v q) (funext fun q' => blk0_apply m c t p q')
    (funext fun q' => blk1_apply m c t p q')

/-- An index of the result array is in point `t`'s block iff each coordinate is in the block's range on its axis. -/
theorem mem_blk (t : Fin cfg0.N) (i : S4194304x8.Idx) :
    i ∈ ((cfg0.win 2).blk t).view.set ↔ ∀ a : Fin 2, win0_2.index t a * S4096x8.size a ≤ (i a).val
      ∧ (i a).val < win0_2.index t a * S4096x8.size a + S4096x8.size a := by
  show i ∈ ((View.whole main_v0).slice (win0_2.rect t)).set ↔ _
  rw [View.set_slice_whole, Rect.mem_set_unit]
  exact Iff.rfl

/-- Every entry of the result array is in some point's block: row `r` in that of point `r / 4096`. -/
theorem cover (i : S4194304x8.Idx) :
    ∃ t : Fin cfg0.N, (cfg0.win 2).flush t = true ∧ i ∈ ((cfg0.win 2).blk t).view.set := by
  have hi0 : (i 0).val < 4194304 := (i 0).isLt
  have hi1 : (i 1).val < 8 := (i 1).isLt
  have hlt : (i 0).val / 4096 < 1024 := by omega
  obtain ⟨-, -, -, -, e20, e21⟩ := idx_facts ⟨(i 0).val / 4096, hlt⟩
  refine ⟨⟨(i 0).val / 4096, hlt⟩, flush0_2 _, ?_⟩
  rw [mem_blk]
  intro a
  match a with
  | ⟨0, _⟩ =>
    show win0_2.index ⟨(i 0).val / 4096, hlt⟩ (0 : Fin 2) * 4096 ≤ (i 0).val
      ∧ (i 0).val < win0_2.index ⟨(i 0).val / 4096, hlt⟩ (0 : Fin 2) * 4096 + 4096
    rw [e20]
    show (i 0).val / 4096 * 4096 ≤ (i 0).val ∧ (i 0).val < (i 0).val / 4096 * 4096 + 4096
    omega
  | ⟨1, _⟩ =>
    show win0_2.index ⟨(i 0).val / 4096, hlt⟩ (1 : Fin 2) * 8 ≤ (i 1).val
      ∧ (i 1).val < win0_2.index ⟨(i 0).val / 4096, hlt⟩ (1 : Fin 2) * 8 + 8
    rw [e21]
    omega

/-- THE RESULT ARRAY after the run: the arguments multiplied row by row. -/
theorem final (c : Dev nD) :
    (dats m 0 c).arrAt 2 cfg0.N
      = rowsWith mul (m ((c : Thread nD τ).loc main_arg0)) (m ((c : Thread nD τ).loc main_arg1)) :=
  ((dats m 0 c).arrAt_eq_of_cover 2 _ (fun t _ => flushed_eq m c t) cover).trans (rowsWith_crossSeq _ _)

/-- The kernel's run: the result array at the row-by-row product of the arguments, the arguments unchanged. -/
theorem run : θ_run defs (onTc (τ := τ) (main (F := Ideal))) ⟨m, fun _ => 0, ρ⟩ fun r => ∀ c : Dev nD,
      r.2.mem ((c : Thread nD τ).loc main_v0)
        = rowsWith mul (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.KernelIdeal.Value.run_blocks m ρ)

end Cert.KernelIdeal.Whole

end
-- ==== Proof.RefOps.lean ====
import proofs.«121008_j43224550867321_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 48 operations, in order. -/
abbrev ops : List (HloOp τ sig (Elt F)) :=
  [ StableHlo.nullary main_cst (fun i => FloatOps.ofBits .f32 (lit0 (S42.rowMajor i))),
    StableHlo.nullary main_c (fun i => lit1 (S42.rowMajor i)),
    StableHlo.nullary main_c_0 (constantI S42 1 0#1),
    StableHlo.nullary main_c_1 (fun i => lit2 (S42.rowMajor i)),
    StableHlo.nullary main_c_2 (constantI S42 1 0#1),
    StableHlo.nullary main_c_3 (fun i => lit3 (S42.rowMajor i)),
    StableHlo.nullary main_c_4 (constantI S42 1 0#1),
    StableHlo.unary main_arg0 main_v0 ((extractStridedSlice S4194304x1 ![0, 0] · slices_S4194304x8_S4194304x1_0_0) : (⟨S4194304x8, .f32⟩ : BufTy).Contents (Elt F) → (⟨S4194304x1, .f32⟩ : BufTy).Contents (Elt F)),
    StableHlo.unary main_arg0 main_v1 ((extractStridedSlice S4194304x7 ![0, 1] · slices_S4194304x8_S4194304x7_0_1) : (⟨S4194304x8, .f32⟩ : BufTy).Contents (Elt F) → (⟨S4194304x7, .f32⟩ : BufTy).Contents (Elt F)),
    StableHlo.unary main_arg1 main_v2 ((extractStridedSlice S4194304x1 ![0, 0] · slices_S4194304x8_S4194304x1_0_0) : (⟨S4194304x8, .f32⟩ : BufTy).Contents (Elt F) → (⟨S4194304x1, .f32⟩ : BufTy).Contents (Elt F)),
    StableHlo.unary main_arg1 main_v3 ((extractStridedSlice S4194304x7 ![0, 1] · slices_S4194304x8_S4194304x7_0_1) : (⟨S4194304x8, .f32⟩ : BufTy).Contents (Elt F) → (⟨S4194304x7, .f32⟩ : BufTy).Contents (Elt F)),
    StableHlo.binary main_v0 main_v2 main_v4 (mulf : (⟨S4194304x1, .f32⟩ : BufTy).Contents (Elt F) → (⟨S4194304x1, .f32⟩ : BufTy).Contents (Elt F) → (⟨S4194304x1, .f32⟩ : BufTy).Contents (Elt F)),
    StableHlo.binary main_v1 main_v3 main_v5 (mulf : (⟨S4194304x7, .f32⟩ : BufTy).Contents (Elt F) → (⟨S4194304x7, .f32⟩ : BufTy).Contents (Elt F) → (⟨S4194304x7, .f32⟩ : BufTy).Contents (Elt F)),
    StableHlo.nullary main_cst_5 (constant S_ .f32 0x00000000#32),
    StableHlo.binary main_v5 main_cst_5 main_v6 ((fun x v => Host.reduceAdd x v reducesTo_S4194304x7_S4194304_d1 h_S_) : (⟨S4194304x7, .f32⟩ : BufTy).Contents (Elt F) → (⟨S_, .f32⟩ : BufTy).Contents (Elt F) → (⟨S4194304, .f32⟩ : BufTy).Contents (Elt F)),
    StableHlo.unary main_v6 main_v7 (broadcastInDim S4194304x1 ![0] bcast_S4194304_S4194304x1_0 : (⟨S4194304, .f32⟩ : BufTy).Contents (Elt F) → (⟨S4194304x1, .f32⟩ : BufTy).Contents (Elt F)),
    StableHlo.binary main_v4 main_v7 main_v8 (subf : (⟨S4194304x1, .f32⟩ : BufTy).Contents (Elt F) → (⟨S4194304x1, .f32⟩ : BufTy).Contents (Elt F) → (⟨S4194304x1, .f32⟩ : BufTy).Contents (Elt F)),
    StableHlo.unary main_v0 main_v9 (broadcastInDim S4194304x7 ![0, 1] bcast_S4194304x1_S4194304x7_0_1 : (⟨S4194304x1, .f32⟩ : BufTy).Contents (Elt F) → (⟨S4194304x7, .f32⟩ : BufTy).Contents (Elt F)),
    StableHlo.binary main_v9 main_v3 main_v10 (mulf : (⟨S4194304x7, .f32⟩ : BufTy).Contents (Elt F) → (⟨S4194304x7, .f32⟩ : BufTy).Contents (Elt F) → (⟨S4194304x7, .f32⟩ : BufTy).Contents (Elt F)),
    StableHlo.unary main_v2 main_v11 (broadcastInDim S4194304x7 ![0, 1] bcast_S4194304x1_S4194304x7_0_1 : (⟨S4194304x1, .f32⟩ : BufTy).Contents (Elt F) → (⟨S4194304x7, .f32⟩ : BufTy).Contents (Elt F)),
    StableHlo.binary main_v11 main_v1 main_v12 (mulf : (⟨S4194304x7, .f32⟩ : BufTy).Contents (Elt F) → (⟨S4194304x7, .f32⟩ : BufTy).Contents (Elt F) → (⟨S4194304x7, .f32⟩ : BufTy).Contents (Elt F)),
    StableHlo.binary main_v10 main_v12 main_v13 (addf : (⟨S4194304x7, .f32⟩ : BufTy).Contents (Elt F) → (⟨S4194304x7, .f32⟩ : BufTy).Contents (Elt F) → (⟨S4194304x7, .f32⟩ : BufTy).Contents (Elt F)),
    StableHlo.nullary main_c_6 (constantI S_ 32 7#32),
    StableHlo.unary main_c_6 main_v14 (broadcastInDim S42 ![] bcast_S_S42 : (⟨S_, .i32⟩ : BufTy).Contents (Elt F) → (⟨S42, .i32⟩ : BufTy).Contents (Elt F)),
    StableHlo.binary main_c main_v14 main_v15 (addi : (⟨S42, .i32⟩ : BufTy).Contents (Elt F) → (⟨S42, .i32⟩ : BufTy).Contents (Elt F) → (⟨S42, .i32⟩ : BufTy).Contents (Elt F)),
    StableHlo.ternary main_c_0 main_v15 main_c main_v16 (select : (⟨S42, .i1⟩ : BufTy).Contents (Elt F) → (⟨S42, .i32⟩ : BufTy).Contents (Elt F) → (⟨S42, .i32⟩ : BufTy).Contents (Elt F) → (⟨S42, .i32⟩ : BufTy).Contents (Elt F)),
    StableHlo.unary main_v16 main_v17 (broadcastInDim S42x1 ![0] bcast_S42_S42x1_0 : (⟨S42, .i32⟩ : BufTy).Contents (Elt F) → (⟨S42x1, .i32⟩ : BufTy).Contents (Elt F)),
    StableHlo.binary main_v1 main_v17 main_v18 ((fun x i => Host.gather gather_S4194304x7_S42x1_S4194304x42_0_1_n_n_1_1_41943041 x i) : (⟨S4194304x7, .f32⟩ : BufTy).Contents (Elt F) → (⟨S42x1, .i32⟩ : BufTy).Contents (Elt F) → (⟨S4194304x42, .f32⟩ : BufTy).Contents (Elt F)),
    StableHlo.unary main_cst main_v19 (broadcastInDim S1x42 ![1] bcast_S42_S1x42_1 : (⟨S42, .f32⟩ : BufTy).Contents (Elt F) → (⟨S1x42, .f32⟩ : BufTy).Contents (Elt F)),
    StableHlo.unary main_v19 main_v20 (broadcastInDim S4194304x42 ![0, 1] bcast_S1x42_S4194304x42_0_1 : (⟨S1x42, .f32⟩ : BufTy).Contents (Elt F) → (⟨S4194304x42, .f32⟩ : BufTy).Contents (Elt F)),
    StableHlo.binary main_v20 main_v18 main_v21 (mulf : (⟨S4194304x42, .f32⟩ : BufTy).Contents (Elt F) → (⟨S4194304x42, .f32⟩ : BufTy).Contents (Elt F) → (⟨S4194304x42, .f32⟩ : BufTy).Contents (Elt F)),
    StableHlo.nullary main_c_7 (constantI S_ 32 7#32),
    StableHlo.unary main_c_7 main_v22 (broadcastInDim S42 ![] bcast_S_S42 : (⟨S_, .i32⟩ : BufTy).Contents (Elt F) → (⟨S42, .i32⟩ : BufTy).Contents (Elt F)),
    StableHlo.binary main_c_1 main_v22 main_v23 (addi : (⟨S42, .i32⟩ : BufTy).Contents (Elt F) → (⟨S42, .i32⟩ : BufTy).Contents (Elt F) → (⟨S42, .i32⟩ : BufTy).Contents (Elt F)),
    StableHlo.ternary main_c_2 main_v23 main_c_1 main_v24 (select : (⟨S42, .i1⟩ : BufTy).Contents (Elt F) → (⟨S42, .i32⟩ : BufTy).Contents (Elt F) → (⟨S42, .i32⟩ : BufTy).Contents (Elt F) → (⟨S42, .i32⟩ : BufTy).Contents (Elt F)),
    StableHlo.unary main_v24 main_v25 (broadcastInDim S42x1 ![0] bcast_S42_S42x1_0 : (⟨S42, .i32⟩ : BufTy).Contents (Elt F) → (⟨S42x1, .i32⟩ : BufTy).Contents (Elt F)),
    StableHlo.binary main_v3 main_v25 main_v26 ((fun x i => Host.gather gather_S4194304x7_S42x1_S4194304x42_0_1_n_n_1_1_41943041 x i) : (⟨S4194304x7, .f32⟩ : BufTy).Contents (Elt F) → (⟨S42x1, .i32⟩ : BufTy).Contents (Elt F) → (⟨S4194304x42, .f32⟩ : BufTy).Contents (Elt F)),
    StableHlo.binary main_v21 main_v26 main_v27 (mulf : (⟨S4194304x42, .f32⟩ : BufTy).Contents (Elt F) → (⟨S4194304x42, .f32⟩ : BufTy).Contents (Elt F) → (⟨S4194304x42, .f32⟩ : BufTy).Contents (Elt F)),
    StableHlo.nullary main_cst_8 (constant S_ .f32 0x00000000#32),
    StableHlo.unary main_cst_8 main_v28 (broadcastInDim S4194304x7 ![] bcast_S_S4194304x7 : (⟨S_, .f32⟩ : BufTy).Contents (Elt F) → (⟨S4194304x7, .f32⟩ : BufTy).Contents (Elt F)),
    StableHlo.nullary main_c_9 (constantI S_ 32 7#32),
    StableHlo.unary main_c_9 main_v29 (broadcastInDim S42 ![] bcast_S_S42 : (⟨S_, .i32⟩ : BufTy).Contents (Elt F) → (⟨S42, .i32⟩ : BufTy).Contents (Elt F)),
    StableHlo.binary main_c_3 main_v29 main_v30 (addi : (⟨S42, .i32⟩ : BufTy).Contents (Elt F) → (⟨S42, .i32⟩ : BufTy).Contents (Elt F) → (⟨S42, .i32⟩ : BufTy).Contents (Elt F)),
    StableHlo.ternary main_c_4 main_v30 main_c_3 main_v31 (select : (⟨S42, .i1⟩ : BufTy).Contents (Elt F) → (⟨S42, .i32⟩ : BufTy).Contents (Elt F) → (⟨S42, .i32⟩ : BufTy).Contents (Elt F) → (⟨S42, .i32⟩ : BufTy).Contents (Elt F)),
    StableHlo.unary main_v31 main_v32 (broadcastInDim S42x1 ![0] bcast_S42_S42x1_0 : (⟨S42, .i32⟩ : BufTy).Contents (Elt F) → (⟨S42x1, .i32⟩ : BufTy).Contents (Elt F)),
    StableHlo.ternary main_v28 main_v32 main_v27 main_v33 ((fun x i u => Host.scatterAdd scatter_S4194304x7_S42x1_S4194304x42_0_1_1_1 x i u) : (⟨S4194304x7, .f32⟩ : BufTy).Contents (Elt F) → (⟨S42x1, .i32⟩ : BufTy).Contents (Elt F) → (⟨S4194304x42, .f32⟩ : BufTy).Contents (Elt F) → (⟨S4194304x7, .f32⟩ : BufTy).Contents (Elt F)),
    StableHlo.binary main_v13 main_v33 main_v34 (addf : (⟨S4194304x7, .f32⟩ : BufTy).Contents (Elt F) → (⟨S4194304x7, .f32⟩ : BufTy).Contents (Elt F) → (⟨S4194304x7, .f32⟩ : BufTy).Contents (Elt F)),
    StableHlo.binary main_v8 main_v34 main_v35 ((fun a b => concatenate S4194304x8 1 [⟨S4194304x1, a⟩, ⟨S4194304x7, b⟩] concatenates_S4194304x1_S4194304x7_S4194304x8_d1) : (⟨S4194304x1, .f32⟩ : BufTy).Contents (Elt F) → (⟨S4194304x7, .f32⟩ : BufTy).Contents (Elt F) → (⟨S4194304x8, .f32⟩ : BufTy).Contents (Elt F)) ]

/-- Every operation reads and writes buffers of the signature only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., unary_bufs_sub .., unary_bufs_sub .., unary_bufs_sub .., unary_bufs_sub .., binary_bufs_sub .., binary_bufs_sub .., nullary_bufs_sub .., binary_bufs_sub .., unary_bufs_sub .., binary_bufs_sub .., unary_bufs_sub .., binary_bufs_sub .., unary_bufs_sub .., binary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., ternary_bufs_sub .., unary_bufs_sub .., ternary_bufs_sub .., binary_bufs_sub .., binary_bufs_sub ..⟩

end Cert.ReferenceIdeal.RefOps

end
-- ==== Proof.RefRun.lean ====
import proofs.«121008_j43224550867321_1_alg».proof.Proof.RefOps

/-!
# What the reference computes, as one function of its two arguments

The reference is a straight line of host operations. Its result array is named here stage by stage, in the
reference's own order: the real column `a₀·b₀ − ∑ a_im·b_im`; the linear part `a₀·b_im + b₀·a_im`; the 42 signed
products `(s·a_im[:, I])·b_im[:, J]` picked through the tables of left and right units; their accumulation into the seven
imaginary columns through the table of product units; and the join of the real column with linear part plus cross
part. Every weakly fair execution of the reference ends with its result buffer at that function of the arguments'
launch contents, the arguments unchanged.
-/

noncomputable section

namespace Cert.ReferenceIdeal.RefRun

open Cert.ReferenceIdeal Cert.ReferenceIdeal.Gen Cert.ReferenceIdeal.RefOps Idealize.ShloMosaic Idealize.ShloMosaic.TcCoe
  Idealize.SL.Sem Idealize.ShloMosaic.StableHlo

variable {F : FTy → Type} [FloatOps F]

/-! ## The stages -/

/-- The real column `x[:, 0:1]` of an array of octonions. -/
def re (x : FVec F S4194304x8 .f32) : FVec F S4194304x1 .f32 :=
  extractStridedSlice S4194304x1 ![0, 0] x slices_S4194304x8_S4194304x1_0_0

/-- The seven imaginary columns `x[:, 1:8]`. -/
def imag (x : FVec F S4194304x8 .f32) : FVec F S4194304x7 .f32 :=
  extractStridedSlice S4194304x7 ![0, 1] x slices_S4194304x8_S4194304x7_0_1

/-- `a₀·b₀ − ∑ a_im·b_im`, the sum kept as a column. -/
def realPart (a b : FVec F S4194304x8 .f32) : FVec F S4194304x1 .f32 :=
  subf (mulf (re a) (re b))
    (broadcastInDim S4194304x1 ![0] bcast_S4194304_S4194304x1_0
      (Host.reduceAdd (mulf (imag a) (imag b)) (constant S_ .f32 0x00000000#32) reducesTo_S4194304x7_S4194304_d1 h_S_))

/-- `a₀·b_im + b₀·a_im`. -/
def linearPart (a b : FVec F S4194304x8 .f32) : FVec F S4194304x7 .f32 :=
  addf (mulf (broadcastInDim S4194304x7 ![0, 1] bcast_S4194304x1_S4194304x7_0_1 (re a)) (imag b))
    (mulf (broadcastInDim S4194304x7 ![0, 1] bcast_S4194304x1_S4194304x7_0_1 (re b)) (imag a))

/-- A table of 42 column numbers as the column of start indices an indexing operation takes: jnp's wrap of negative
    numbers (never taken here: the wrap's mask is constant false) and the re-lay `[42] → [42, 1]`. -/
def table (lit : Fin 42 → BitVec 32) : IVec S42x1 32 :=
  broadcastInDim S42x1 ![0] bcast_S42_S42x1_0
    (select (constantI S42 1 0#1)
      (addi (fun i => lit (S42.rowMajor i)) (broadcastInDim S42 ![] bcast_S_S42 (constantI S_ 32 7#32)))
      (fun i => lit (S42.rowMajor i)))

/-- The 42 signed products `(s·a_im[:, I])·b_im[:, J]`. -/
def products (a b : FVec F S4194304x8 .f32) : FVec F S4194304x42 .f32 :=
  mulf
    (mulf
      (broadcastInDim S4194304x42 ![0, 1] bcast_S1x42_S4194304x42_0_1
        (broadcastInDim S1x42 ![1] bcast_S42_S1x42_1 (fun i => FloatOps.ofBits .f32 (lit0 (S42.rowMajor i)))))
      (Host.gather gather_S4194304x7_S42x1_S4194304x42_0_1_n_n_1_1_41943041 (imag a) (table lit1)))
    (Host.gather gather_S4194304x7_S42x1_S4194304x42_0_1_n_n_1_1_41943041 (imag b) (table lit2))

/-- The products accumulated into the seven imaginary columns, from zero. -/
def crossPart (a b : FVec F S4194304x8 .f32) : FVec F S4194304x7 .f32 :=
  Host.scatterAdd scatter_S4194304x7_S42x1_S4194304x42_0_1_1_1
    (broadcastInDim S4194304x7 ![] bcast_S_S4194304x7 (constant S_ .f32 0x00000000#32)) (table lit3) (products a b)

/-- The reference's result: the real column joined with linear part plus cross part. -/
def result (a b : FVec F S4194304x8 .f32) : FVec F S4194304x8 .f32 :=
  concatenate S4194304x8 1 [⟨S4194304x1, realPart a b⟩, ⟨S4194304x7, addf (linearPart a b) (crossPart a b)⟩]
    concatenates_S4194304x1_S4194304x7_S4194304x8_d1

/-! ## The run -/

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxHeartbeats 2000000 in
/-- On every device, for any float values, from any memory with zero counters: every weakly fair execution of @main
    terminates with the result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (by
        -- the last operation joins the real column with the imaginary columns: its two operands are read separately
        simp only [after_cons, after_nil]
        rw [binary_result]
        unfold result
        refine congrArg₂ (fun (u : FVec F S4194304x1 .f32) (v : FVec F S4194304x7 .f32) =>
          concatenate S4194304x8 1 [⟨S4194304x1, u⟩, ⟨S4194304x7, v⟩] concatenates_S4194304x1_S4194304x7_S4194304x8_d1) ?_ ?_
        · after_results_simp
          rfl
        · after_results_simp
          rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.LibColumnTable.lean ====
import Idealize.ShloMosaic.PureOps.Ideal.Laws
import Idealize.ShloMosaic.Lib.ValueIdx

/-!
# Columns picked and accumulated through a table of column numbers

For an array of rows `x : [B, K]` and a table `idx : [M, 1]` of signed column numbers:

* `x[:, idx]`, the gather that keeps each row whole (offset axis 0 of extent `B`), collapses the column axis and
  reads its one start component on that axis, is at `(r, n)` the entry `x[r, idx[n]]` with the column number read
  signed and clamped into `[0, K − 1]`;
* `x.at[:, idx].add(u)` for `u : [B, M]`, the scatter with an adding body whose window is a whole column of
  rows and whose inserted axis is the column axis, is on the extended reals at `(r, k)` the entry `x[r, k]`
  plus the sum of `u[r, n]` over the table positions `n` whose column number is `k`. A position whose number falls
  outside `[0, K)` lands nowhere and adds nothing.
-/

noncomputable section

namespace Cert.LibColumnTable

open Idealize.ShloMosaic Idealize.ShloMosaic.ValueIdx
open scoped BigOperators

variable {α : Type}

/-! ## The gather `x[:, idx]` -/

/-- The dimension numbers of `x[:, idx]`: operand `[B, K]`, start indices `[M, 1]`, result `[B, M]`. -/
abbrev colGatherDims (B K M : ℕ)
    (wf : GatherDims.WF ⟨2, ![B, K]⟩ ⟨2, ![M, 1]⟩ ⟨2, ![B, M]⟩ [0] [1] [] [1] [] 1 ![B, 1]) :
    GatherDims ⟨2, ![B, K]⟩ ⟨2, ![M, 1]⟩ ⟨2, ![B, M]⟩ where
  offsetDims := [0]
  collapsedSliceDims := [1]
  operandBatchingDims := []
  startIndicesBatchingDims := []
  startIndexMap := [1]
  indexVectorDim := 1
  sliceSizes := ![B, 1]
  wf := wf

/-- `x[:, idx]` at `(r, n)`: row `r` of the operand at the column the table names at `n`, read signed and
    clamped into `[0, K − 1]`. -/
theorem gather_cols_apply {B K M w : ℕ} (hK : 0 < K)
    (wf : GatherDims.WF ⟨2, ![B, K]⟩ ⟨2, ![M, 1]⟩ ⟨2, ![B, M]⟩ [0] [1] [] [1] [] 1 ![B, 1])
    (x : (⟨2, ![B, K]⟩ : Shape).Idx → α) (idx : IVec ⟨2, ![M, 1]⟩ w) (r : Fin B) (n : Fin M) :
    Host.gather (colGatherDims B K M wf) x idx (ix2 r n)
      = x (ix2 r ⟨min (idx (ix2 n (0 : Fin 1))).toInt.toNat (K - 1), by omega⟩) := by
  unfold Host.gather
  congr 1
  funext a
  refine Fin.ext ?_
  match a with
  | ⟨0, _⟩ =>
    show (colGatherDims B K M wf).start (ix2 r n) idx 0 + (colGatherDims B K M wf).batchCoord (ix2 r n) 0
      + (colGatherDims B K M wf).offCoord (ix2 r n) 0 = r.val
    rw [GatherDims.batchCoord_eq_zero _ _ _ List.not_mem_nil]
    have hs : (colGatherDims B K M wf).start (ix2 r n) idx 0 = 0 := by
      unfold GatherDims.start
      rw [dif_neg (fun h => absurd (congrArg Fin.val (List.mem_singleton.mp h)) Nat.zero_ne_one)]
    have ho : (colGatherDims B K M wf).offCoord (ix2 r n) 0 = r.val := by
      unfold GatherDims.offCoord
      rw [dif_pos ((GatherDims.mem_sKept _ _).mpr
        ⟨fun h => absurd (congrArg Fin.val (List.mem_singleton.mp h)) Nat.zero_ne_one, List.not_mem_nil⟩)]
      rfl
    rw [hs, ho]; omega
  | ⟨1, _⟩ =>
    show (colGatherDims B K M wf).start (ix2 r n) idx 1 + (colGatherDims B K M wf).batchCoord (ix2 r n) 1
      + (colGatherDims B K M wf).offCoord (ix2 r n) 1 = min (idx (ix2 n (0 : Fin 1))).toInt.toNat (K - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims B K M wf).startIndexMap from List.mem_singleton.mpr rfl)]
    have hsi : (colGatherDims B K M wf).siIdx (ix2 r n) ⟨List.idxOf (1 : Fin 2) (colGatherDims B K M wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

/-- The same, for any way of writing the clamped column number. -/
theorem gather_cols_eq {B K M w : ℕ}
    (wf : GatherDims.WF ⟨2, ![B, K]⟩ ⟨2, ![M, 1]⟩ ⟨2, ![B, M]⟩ [0] [1] [] [1] [] 1 ![B, 1])
    (x : (⟨2, ![B, K]⟩ : Shape).Idx → α) (idx : IVec ⟨2, ![M, 1]⟩ w) (r : Fin B) (n : Fin M) (c : Fin K)
    (hc : c.val = min (idx (ix2 n (0 : Fin 1))).toInt.toNat (K - 1)) :
    Host.gather (colGatherDims B K M wf) x idx (ix2 r n) = x (ix2 r c) :=
  (gather_cols_apply (Nat.lt_of_le_of_lt (Nat.zero_le _) c.isLt) wf x idx r n).trans
    (congrArg (fun c' : Fin K => x (ix2 r c')) (Fin.ext hc.symm))

/-! ## The accumulating scatter `x.at[:, idx].add(u)` -/

/-- The dimension numbers of `x.at[:, idx].add(u)`: operand `[B, K]`, scatter indices `[M, 1]`, updates `[B, M]`. -/
abbrev colScatterDims (B K M : ℕ)
    (wf : ScatterDims.WF ⟨2, ![B, K]⟩ ⟨2, ![M, 1]⟩ ⟨2, ![B, M]⟩ [0] [1] [1] 1) :
    ScatterDims ⟨2, ![B, K]⟩ ⟨2, ![M, 1]⟩ ⟨2, ![B, M]⟩ where
  updateWindowDims := [0]
  insertedWindowDims := [1]
  scatterDimsToOperandDims := [1]
  indexVectorDim := 1
  wf := wf

section Land
variable {B K M w : ℕ} (wf : ScatterDims.WF ⟨2, ![B, K]⟩ ⟨2, ![M, 1]⟩ ⟨2, ![B, M]⟩ [0] [1] [1] 1)
  (idx : IVec ⟨2, ![M, 1]⟩ w) (r : Fin B) (n : Fin M)

/-- On the row axis an update starts at 0 … -/
theorem colScatter_start_row : (colScatterDims B K M wf).start (ix2 r n) idx 0 = 0 := by
  unfold ScatterDims.start
  rw [dif_neg (fun h => absurd (congrArg Fin.val (List.mem_singleton.mp h)) Nat.zero_ne_one)]

/-- … and its window coordinate is its own row; -/
theorem colScatter_window_row : (colScatterDims B K M wf).window (ix2 r n) 0 = r.val := by
  unfold ScatterDims.window
  rw [dif_pos (show (0 : Fin 2) ∈ (colScatterDims B K M wf).sKept from by
    show (0 : Fin 2) ∈ (List.finRange 2).filter fun a => a ∉ ([1] : List (Fin 2))
    decide)]
  rfl

/-- on the column axis it starts at the table's number for its position, read signed, … -/
theorem colScatter_start_col :
    (colScatterDims B K M wf).start (ix2 r n) idx 1 = (idx (ix2 n (0 : Fin 1))).toInt := by
  unfold ScatterDims.start
  rw [dif_pos (show (1 : Fin 2) ∈ (colScatterDims B K M wf).scatterDimsToOperandDims from List.mem_singleton.mpr rfl)]
  have hsi : (colScatterDims B K M wf).siIdx (ix2 r n)
      ⟨List.idxOf (1 : Fin 2) (colScatterDims B K M wf).scatterDimsToOperandDims,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- … with no window coordinate there (the axis is inserted). -/
theorem colScatter_window_col : (colScatterDims B K M wf).window (ix2 r n) 1 = 0 := by
  unfold ScatterDims.window
  rw [dif_neg (show ¬ (1 : Fin 2) ∈ (colScatterDims B K M wf).sKept from by
    show ¬ (1 : Fin 2) ∈ (List.finRange 2).filter fun a => a ∉ ([1] : List (Fin 2))
    decide)]

/-- So update `(r, n)` lands on entry `i` exactly when `i` is in row `r` and its column is the table's number at
    `n`. -/
theorem colScatter_lands_iff (i : (⟨2, ![B, K]⟩ : Shape).Idx) :
    (colScatterDims B K M wf).resultIdx? (ix2 r n) idx = some i
      ↔ (i 0).val = r.val ∧ (((i 1).val : ℕ) : ℤ) = (idx (ix2 n (0 : Fin 1))).toInt := by
  have h0s := colScatter_start_row wf idx r n
  have h0w := colScatter_window_row wf r n
  have h1s := colScatter_start_col wf idx r n
  have h1w := colScatter_window_col wf r n
  have hi0 : (i 0).val < B := (i 0).isLt
  have hi1 : (i 1).val < K := (i 1).isLt
  unfold ScatterDims.resultIdx?
  split
  · rename_i h
    rw [Option.some.injEq]
    constructor
    · intro e
      have e0 : ((colScatterDims B K M wf).start (ix2 r n) idx 0 + ((colScatterDims B K M wf).window (ix2 r n) 0 : ℕ)).toNat
          = (i 0).val := congrArg (fun f : (⟨2, ![B, K]⟩ : Shape).Idx => (f 0).val) e
      have e1 : ((colScatterDims B K M wf).start (ix2 r n) idx 1 + ((colScatterDims B K M wf).window (ix2 r n) 1 : ℕ)).toNat
          = (i 1).val := congrArg (fun f : (⟨2, ![B, K]⟩ : Shape).Idx => (f 1).val) e
      have b1 := h 1
      rw [h0s, h0w] at e0
      rw [h1s, h1w] at e1 b1
      constructor
      · omega
      · omega
    · rintro ⟨e0, e1⟩
      funext a
      refine Fin.ext ?_
      match a with
      | ⟨0, _⟩ =>
        show ((colScatterDims B K M wf).start (ix2 r n) idx 0 + ((colScatterDims B K M wf).window (ix2 r n) 0 : ℕ)).toNat
          = (i 0).val
        rw [h0s, h0w]; omega
      | ⟨1, _⟩ =>
        show ((colScatterDims B K M wf).start (ix2 r n) idx 1 + ((colScatterDims B K M wf).window (ix2 r n) 1 : ℕ)).toNat
          = (i 1).val
        rw [h1s, h1w]; omega
  · rename_i h
    constructor
    · intro e; cases e
    · rintro ⟨e0, e1⟩
      refine absurd (fun a => ?_) h
      match a with
      | ⟨0, _⟩ =>
        show 0 ≤ (colScatterDims B K M wf).start (ix2 r n) idx 0 + ((colScatterDims B K M wf).window (ix2 r n) 0 : ℕ)
          ∧ (colScatterDims B K M wf).start (ix2 r n) idx 0 + ((colScatterDims B K M wf).window (ix2 r n) 0 : ℕ) < (B : ℕ)
        rw [h0s, h0w]; constructor <;> omega
      | ⟨1, _⟩ =>
        show 0 ≤ (colScatterDims B K M wf).start (ix2 r n) idx 1 + ((colScatterDims B K M wf).window (ix2 r n) 1 : ℕ)
          ∧ (colScatterDims B K M wf).start (ix2 r n) idx 1 + ((colScatterDims B K M wf).window (ix2 r n) 1 : ℕ) < (K : ℕ)
        rw [h1s, h1w]; constructor <;> omega

end Land

/-- `x.at[:, idx].add(u)` on the extended reals at `(r, k)`: the operand's entry plus the sum of row `r` of the
    updates over the table positions whose column number is `k`. -/
theorem scatterAdd_cols_apply {B K M w : ℕ} {φ : FTy}
    (wf : ScatterDims.WF ⟨2, ![B, K]⟩ ⟨2, ![M, 1]⟩ ⟨2, ![B, M]⟩ [0] [1] [1] 1)
    (x : FVec Ideal (⟨2, ![B, K]⟩ : Shape) φ) (idx : IVec ⟨2, ![M, 1]⟩ w) (upd : FVec Ideal (⟨2, ![B, M]⟩ : Shape) φ)
    (r : Fin B) (k : Fin K) :
    Host.scatterAdd (colScatterDims B K M wf) x idx upd (ix2 r k)
      = x (ix2 r k) + ∑ n ∈ Finset.univ.filter (fun n : Fin M => (idx (ix2 n (0 : Fin 1))).toInt = ((k.val : ℕ) : ℤ)),
          upd (ix2 r n) := by
  show x (ix2 r k) + ∑ j ∈ Finset.univ.filter
      (fun j => (colScatterDims B K M wf).resultIdx? j idx = some (ix2 r k)), upd j = _
  congr 1
  rw [Finset.sum_filter, sum_idx2, Finset.sum_filter, Finset.sum_eq_single r]
  · refine Finset.sum_congr rfl fun n _ => ?_
    by_cases hk : (idx (ix2 n (0 : Fin 1))).toInt = ((k.val : ℕ) : ℤ)
    · rw [if_pos ((colScatter_lands_iff wf idx r n (ix2 r k)).mpr ⟨rfl, hk.symm⟩), if_pos hk]
    · rw [if_neg (fun h => hk ((colScatter_lands_iff wf idx r n (ix2 r k)).mp h).2.symm), if_neg hk]
  · intro a _ ha
    refine Finset.sum_eq_zero fun n _ => if_neg fun h => ha (Fin.ext ?_)
    exact ((colScatter_lands_iff wf idx a n (ix2 r k)).mp h).1.symm
  · intro h; exact absurd (Finset.mem_univ r) h

end Cert.LibColumnTable

end
-- ==== Proof.RefRow.lean ====
import proofs.«121008_j43224550867321_1_alg».proof.Proof.RefRun
import proofs.«121008_j43224550867321_1_alg».proof.Proof.LibColumnIndex
import proofs.«121008_j43224550867321_1_alg».proof.Proof.LibColumnTable
import proofs.«121008_j43224550867321_1_alg».proof.Proof.OctonionRows

/-!
# The reference multiplies its arguments row by row

Entry `(r, q)` of the reference's result is entry `q` of the octonion product of row `r` of its two arguments:

* its three tables of column numbers and its table of signs are the structure constants, position by position;
* `a_im[:, I]` and `b_im[:, J]` at `(r, n)` are the imaginary parts of row `r` at position `n`'s left and right unit, so the
  42 products at `(r, n)` are position `n`'s contribution `(± aᵢ)·bⱼ`;
* the accumulation from zero through the table of product units is, at `(r, k)`, zero plus the sum of the contributions
  of the positions that land on `k`: the cross term;
* the real column is `a₀·b₀` minus (zero plus) the sum of `aₖ·bₖ`.
-/

noncomputable section

namespace Cert.ReferenceIdeal.RefRow

open Cert.ReferenceIdeal Cert.ReferenceIdeal.Gen Cert.ReferenceIdeal.RefRun Idealize.ShloMosaic Idealize.ShloMosaic.ValueIdx
open Cert.LibColumnIndex Cert.LibColumnTable Cert.Octonion

/-! ## The program's tables are the structure constants -/

theorem lit0_eq : ∀ n : Fin 42, lit0 n = signW n := by decide
theorem lit1_eq : ∀ n : Fin 42, lit1 n = leftW n := by decide
theorem lit2_eq : ∀ n : Fin 42, lit2 n = rightW n := by decide
theorem lit3_eq : ∀ n : Fin 42, lit3 n = prodW n := by decide

/-- The position a one-axis index of the 42 positions names. -/
theorem pos_eq (n : Fin 42) : S42.rowMajor (ix1 n) = n := Fin.ext (Shape.rowMajor_val_one _)

/-- A table laid out as the column of start indices reads, at position `n`, the table's word there: the wrap of
    negative numbers is switched off by its constant-false mask. -/
theorem table_apply (lit : Fin 42 → BitVec 32) (n : Fin 42) (u : Fin 1) : table lit (ix2 n u) = lit n := by
  unfold table
  refine (bcast_vec_col_apply _ _ n u).trans ?_
  refine (select_apply _ _ _ _).trans ?_
  refine (select_zero _ _).trans ?_
  exact congrArg lit (pos_eq n)

/-! ## The 42 products -/

theorem products_apply (a b : FVec Ideal S4194304x8 .f32) (r : Fin 4194304) (n : Fin 42) :
    products a b (ix2 r n) = term (rowOf a r) (rowOf b r) n := by
  unfold products term
  refine (mulf_apply _ _ _).trans ?_
  refine congrArg₂ (· * ·) ((mulf_apply _ _ _).trans (congrArg₂ (· * ·) ?_ ?_)) ?_
  · refine (bcast_row_rect_apply _ _ r n).trans ?_
    refine (bcast_vec_row_apply _ _ 0 n).trans ?_
    show Ideal.ofBits .f32 (lit0 (S42.rowMajor (ix1 n))) = Ideal.ofBits .f32 (signW n)
    rw [pos_eq, lit0_eq]
  · refine (gather_cols_eq gather_S4194304x7_S42x1_S4194304x42_0_1_n_n_1_1_41943041_wf _ _ r n (unitOf (leftW n))
      (by rw [table_apply, lit1_eq])).trans ?_
    unfold RefRun.imag
    exact slice_cols_apply 1 a _ r _
  · refine (gather_cols_eq gather_S4194304x7_S42x1_S4194304x42_0_1_n_n_1_1_41943041_wf _ _ r n (unitOf (rightW n))
      (by rw [table_apply, lit2_eq])).trans ?_
    unfold RefRun.imag
    exact slice_cols_apply 1 b _ r _

/-! ## The cross part -/

theorem cross_apply (a b : FVec Ideal S4194304x8 .f32) (r : Fin 4194304) (k : Fin 7) :
    crossPart a b (ix2 r k) = cross (rowOf a r) (rowOf b r) k := by
  unfold crossPart cross
  refine (scatterAdd_cols_apply scatter_S4194304x7_S42x1_S4194304x42_0_1_1_1_wf _ _ _ r k).trans ?_
  rw [bcast_scalar_apply, show constant (F := Ideal) S_ .f32 0x00000000#32 ix0 = 0 from Ideal.ofBits_zero_f32, zero_add]
  refine Finset.sum_congr (Finset.filter_congr fun n _ => by rw [table_apply, lit3_eq]) fun n _ => products_apply a b r n

/-! ## The result -/

/-- THE REFERENCE'S RESULT at `(r, q)`: entry `q` of the product of row `r` of its arguments. -/
theorem result_apply (a b : FVec Ideal S4194304x8 .f32) (r : Fin 4194304) (q : Fin 8) :
    result a b (ix2 r q) = mul (rowOf a r) (rowOf b r) q := by
  unfold result
  induction q using Fin.cases with
  | zero =>
    refine (join_col_cols_left _ _ _ r 0 rfl).trans ?_
    simp only [mul, mulWith, Fin.cases_zero]
    unfold RefRun.realPart RefRun.re RefRun.imag
    refine (subf_apply _ _ _).trans (congrArg₂ (· - ·) ?_ ?_)
    · refine (mulf_apply _ _ _).trans (congrArg₂ (· * ·) ?_ ?_)
      · exact slice_cols_apply 0 a _ r 0
      · exact slice_cols_apply 0 b _ r 0
    · refine (bcast_vec_col_apply _ _ r 0).trans ?_
      refine (hostRowSum_apply _ _ _ _ r).trans ?_
      rw [show constant (F := Ideal) S_ .f32 0x00000000#32 (Shape.Idx.first h_S_) = 0 from Ideal.ofBits_zero_f32, zero_add]
      refine Finset.sum_congr rfl fun k _ => ?_
      refine (mulf_apply _ _ _).trans (congrArg₂ (· * ·) ?_ ?_)
      · exact slice_cols_apply 1 a _ r k
      · exact slice_cols_apply 1 b _ r k
  | succ k =>
    refine (join_col_cols_right _ _ _ r k.succ k (Fin.val_succ k)).trans ?_
    refine (addf_apply _ _ _).trans ?_
    simp only [mul, mulWith, Fin.cases_succ]
    refine congrArg₂ (· + ·) ?_ (cross_apply a b r k)
    unfold RefRun.linearPart RefRun.re RefRun.imag
    refine (addf_apply _ _ _).trans (congrArg₂ (· + ·) ?_ ?_)
    · refine (mulf_apply _ _ _).trans (congrArg₂ (· * ·) ?_ ?_)
      · exact (bcast_col_rect_apply _ _ r k).trans (slice_cols_apply 0 a _ r 0)
      · exact slice_cols_apply 1 b _ r k
    · refine (mulf_apply _ _ _).trans (congrArg₂ (· * ·) ?_ ?_)
      · exact (bcast_col_rect_apply _ _ r k).trans (slice_cols_apply 0 b _ r 0)
      · exact slice_cols_apply 1 a _ r k

/-- So the reference's result is its arguments multiplied row by row. -/
theorem result_eq (a b : FVec Ideal S4194304x8 .f32) : result a b = rowsWith mul a b :=
  eq_rowsWith _ a b _ (result_apply a b)

end Cert.ReferenceIdeal.RefRow

end
-- ==== Proof.lean ====
/- The product of two arrays of octonions, row by row: a tiled kernel against a gather / scatter-add reference.

   Both programs take two `[4194304, 8]` arrays, one octonion to a row (a real part and seven imaginary parts), and return
   the array of Cayley–Dickson products: real part `a₀·b₀ − ∑ aₖ·bₖ`, imaginary part `k` equal to `a₀·bₖ + b₀·aₖ` plus the sum
   of `(± aᵢ)·bⱼ` over the six ordered pairs of units with `eᵢ·eⱼ = ± eₖ`.

   The kernel walks the rows 4096 at a time; for each block it cuts unit columns, forms the 42 signed products one by
   one and adds the six that belong to each unit from left to right (Proof/KernelRow.lean: a stored block is its loaded
   blocks multiplied row by row; Proof/KernelValue.lean: the 1024 blocks tile the array). The reference picks the left and
   right factors through two tables of column numbers, multiplies by a table of signs, and accumulates the 42 product
   columns into seven through a third table, starting from zero (Proof/RefRun.lean: its run; Proof/RefRow.lean: its
   result row by row). On the extended reals addition is commutative and associative, so six additions in any order, with
   or without a leading zero, are one finite sum (Proof/Octonion.lean): the two results are the same array, whatever
   the inputs. The kernel's idealization rewrote nothing, and the three programs' argument arrays are never written. -/
import proofs.«121008_j43224550867321_1_alg».proof.Defs
import proofs.«121008_j43224550867321_1_alg».proof.Proof.Gen.Kernel
import proofs.«121008_j43224550867321_1_alg».proof.Proof.Gen.Kernel.Skeleton
import proofs.«121008_j43224550867321_1_alg».proof.Proof.Gen.Kernel.Launch
import proofs.«121008_j43224550867321_1_alg».proof.Proof.Gen.Kernel.Points
import proofs.«121008_j43224550867321_1_alg».proof.Proof.Gen.Kernel.Frame
import proofs.«121008_j43224550867321_1_alg».proof.Proof.Gen.KernelIdeal
import proofs.«121008_j43224550867321_1_alg».proof.Proof.Gen.KernelIdeal.Skeleton
import proofs.«121008_j43224550867321_1_alg».proof.Proof.Gen.KernelIdeal.Launch
import proofs.«121008_j43224550867321_1_alg».proof.Proof.Gen.KernelIdeal.Points
import proofs.«121008_j43224550867321_1_alg».proof.Proof.Gen.KernelIdeal.Frame
import proofs.«121008_j43224550867321_1_alg».proof.Proof.Gen.KernelIdeal.Value
import proofs.«121008_j43224550867321_1_alg».proof.Proof.Gen.ReferenceIdeal
import proofs.«121008_j43224550867321_1_alg».proof.Proof.Gen.Pre_finite_inputs
import proofs.«121008_j43224550867321_1_alg».proof.Proof.KernelValue
import proofs.«121008_j43224550867321_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the two arguments both programs end with the arguments multiplied row by row. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefRow.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
